-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x1024x1024 : Shape := ⟨3, ![64, 1024, 1024]⟩
abbrev S_ : Shape := ⟨0, ![]⟩

class Facts : Prop where
  bcast_S_S64x1024x1024 : S_.BroadcastsInDim S64x1024x1024 (![] : Fin 0 → Fin S64x1024x1024.rank)
  reducesTo_S64x1024x1024_S_d0_1_2 : S64x1024x1024.ReducesTo [0, 1, 2] S_
  h_S_ : 0 < S_.numel

variable [Facts]

def fn {F : FTy → Type} [FloatOps F] (main_arg0 : FVec F S64x1024x1024 .f32) : IVec S_ 1 :=
  let main_v0 : FVec F S64x1024x1024 .f32 := Host.absf main_arg0
  let main_cst : FVec F S_ .f32 := constant S_ .f32 0x7F800000#32
  let main_v1 : FVec F S64x1024x1024 .f32 := broadcastInDim S64x1024x1024 ![] bcast_S_S64x1024x1024 main_cst
  let main_v2 : IVec S64x1024x1024 1 := cmpf .olt main_v0 main_v1
  let main_c : IVec S_ 1 := constantI S_ 1 1#1
  let main_v3 : IVec S_ 1 := (fun x v => Host.reduce IntOp.andi x v reducesTo_S64x1024x1024_S_d0_1_2 h_S_) main_v2 main_c
  main_v3
-- ==== Kernel.lean ====
abbrev S64x1024x1024 : Shape := ⟨3, ![64, 1024, 1024]⟩
abbrev S65536x1024 : Shape := ⟨2, ![65536, 1024]⟩
abbrev S2048x1024 : Shape := ⟨2, ![2048, 1024]⟩

abbrev nBuf : Space → Nat
  | .hbm => 4
  | .vmem => 4
  | .smem => 0
  | _ => 0

abbrev bufTy : (tb : Table) → Fin (tcTables nBuf tb) → BufTy
  | .hbm, ⟨0, _⟩ => ⟨S64x1024x1024, .f32⟩
  | .hbm, ⟨1, _⟩ => ⟨S65536x1024, .f32⟩
  | .hbm, ⟨2, _⟩ => ⟨S65536x1024, .f32⟩
  | .hbm, ⟨3, _⟩ => ⟨S64x1024x1024, .f32⟩
  | .local _ .vmem, ⟨0, _⟩ => ⟨S2048x1024, .f32⟩
  | .local _ .vmem, ⟨1, _⟩ => ⟨S2048x1024, .f32⟩
  | .local _ .vmem, ⟨2, _⟩ => ⟨S2048x1024, .f32⟩
  | .local _ .vmem, ⟨3, _⟩ => ⟨S2048x1024, .f32⟩
  | _, _ => ⟨S64x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S64x1024x1024_S65536x1024 : S64x1024x1024.ShapeCasts S65536x1024
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  shapeCasts_S65536x1024_S64x1024x1024 : S65536x1024.ShapeCasts S64x1024x1024
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S65536x1024.size a
  hwx0_0 : ∀ i : grid0.Coords, EltTy.bits .f32 = 32 ∨ (Rect.block (s := S65536x1024) S2048x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1024.size a ≤ S65536x1024.size a
  hwx0_1 : ∀ i : grid0.Coords, EltTy.bits .f32 = 32 ∨ (Rect.block (s := S65536x1024) S2048x1024.size (cc0_transform_1 i) (hinb0_1 i)).WholeWords (EltTy.packing .f32)

variable [Facts₀]

abbrev win0_0 : Pipeline.Window sig grid0 :=
  Pipeline.Window.ofSpec (Memref.whole main_v0) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2048x1024.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where
  halias0_1 : Pipeline.Aliased win0 0 1

variable [Facts]
-- ==== ReferenceIdeal.lean ====
abbrev S64x1024x1024 : Shape := ⟨3, ![64, 1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S64x1024x1024, .f32⟩
  | .hbm, ⟨1, _⟩ => ⟨S_, .f32⟩
  | .hbm, ⟨2, _⟩ => ⟨S64x1024x1024, .f32⟩
  | .hbm, ⟨3, _⟩ => ⟨S64x1024x1024, .f32⟩
  | .hbm, ⟨4, _⟩ => ⟨S_, .f32⟩
  | .hbm, ⟨5, _⟩ => ⟨S64x1024x1024, .f32⟩
  | .hbm, ⟨6, _⟩ => ⟨S64x1024x1024, .f32⟩
  | .hbm, ⟨7, _⟩ => ⟨S64x1024x1024, .f32⟩
  | _, _ => ⟨S64x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]

class Facts₀ : Prop where
  bcast_S_S64x1024x1024 : S_.BroadcastsInDim S64x1024x1024 (![] : Fin 0 → Fin S64x1024x1024.rank)

variable [Facts₀]

class Facts : Prop extends Facts₀ where

variable [Facts]
-- ==== Proof.SqAffine.lean ====
/-
  The scalar map both programs apply to every entry, and how it sits under a change of shape.

  Kernel and reference both compute, entry by entry, the square of an affine image of the input:
  `x ↦ ((x + 2) · 3)²`, with `2` and `3` the SAME two binary words on both sides, so the words are
  never evaluated: the two results are one term of the float operations at any instance. A reshape only
  renames positions (the same entries in row-major order), so mapping a scalar function over the
  entries commutes with it, and reshaping there and back around such a map leaves the map itself.
-/
import Idealize.ShloMosaic.PureOps
import Idealize.ShloMosaic.Lib.Pipeline.Value

noncomputable section

namespace Cert.SqAffine

open Idealize.ShloMosaic

variable {F : FTy → Type} [FloatOps F]

/-- The affine image `(x + 2) · 3` of a scalar; `2` and `3` are the words `0x40000000`, `0x40400000`. -/
def aff (x : F .f32) : F .f32 :=
  FloatOps.mulf (FloatOps.addf x (FloatOps.ofBits .f32 0x40000000#32)) (FloatOps.ofBits .f32 0x40400000#32)

/-- Its square, `((x + 2) · 3)²`: what every entry of the result is, of the entry of the input at the same position. -/
def sqAff (x : F .f32) : F .f32 := FloatOps.mulf (aff x) (aff x)

/-- Mapping `sqAff` over the entries commutes with a change of shape: a reshape moves entries, it does not
    compute on them. -/
theorem map_shapeCast {s t : Shape} (x : s.Idx → F .f32) (h : s.ShapeCasts t) :
    (fun j => sqAff (shapeCast t x h j)) = shapeCast t (fun i => sqAff (x i)) h := rfl

/-- Reshape, map `sqAff` over the entries, reshape back: the map over the entries of the array one started from. -/
theorem reshape_map_reshape {s t : Shape} (x : s.Idx → F .f32) (h : s.ShapeCasts t) (h' : t.ShapeCasts s) :
    shapeCast s (fun j => sqAff (shapeCast t x h j)) h' = fun i => sqAff (x i) := by
  rw [map_shapeCast]
  exact shapeCast_shapeCast (fun i => sqAff (x i)) h h'

end Cert.SqAffine

end
-- ==== Proof.KernelRows.lean ====
/-
  The kernel, entry by entry.

  The program views the input of shape [64, 1024, 1024] as 65536 rows of 1024 entries (a reshape: the same
  entries in row-major order), copies that array, and walks it in 32 bands of 2048 whole rows. At band `t`
  the body reads the band of the row array and writes, at every position of the band, `sqAff` of the entry it
  read there: `((x + 2) · 3)²`. The output's band sits at the same rows as the input's (both index maps are
  `t ↦ (t, 0)`), so what band `t` writes back is band `t` of ONE function of the row array: `sqAff` mapped
  over it. Row `r` lies in band `r / 2048`, so the 32 bands cover all 65536 rows and the output array ends
  as that function everywhere. The closing reshape returns to [64, 1024, 1024]; reshaping there and back
  around a map over the entries is the map over the entries (`reshape_map_reshape`), so the result holds
  `sqAff` of the input, position by position.
-/
import proofs.«401970_j76166950027789_3_alg».proof.Proof.Gen.KernelIdeal.Frame
import proofs.«401970_j76166950027789_3_alg».proof.Proof.SqAffine
import Idealize.ShloMosaic.Lib.Pipeline.Value
import Idealize.ShloMosaic.Lib.StableHlo.Run

set_option maxRecDepth 16384

noncomputable section

namespace Cert.KernelIdeal.Rows

open Cert.KernelIdeal Cert.KernelIdeal.Gen Idealize.ShloMosaic Idealize.ShloMosaic.TcCoe Idealize.SL.Sem
open Idealize.ShloMosaic.StableHlo
open Idealize.ShloMosaic.Pipeline (Dat)
open Cert.SqAffine

variable {F : FTy → Type} [FloatOps F]
variable (m : (ℓ : Loc nD τ sig) → Buf (Elt F) ℓ) (ρ : Dev nD → PrngReg)

/-- The body's one load and one store start at the band's corner. -/
theorem corner : (![0, 0] : Fin 2 → Nat) = fun _ => 0 := funext fun a => by fin_cases a <;> rfl

/-- `sqAff` mapped over an array of rows. -/
abbrev rowsOut (a : S65536x1024.Idx → Elt F .f32) : S65536x1024.Idx → Elt F .f32 := fun i => sqAff (a i)

/-- What the body stores, of the band it loaded: `sqAff` at every position (the cast to the band's own shape
    changes nothing; the two constants are scalars spread over the band). -/
theorem payload_eq (x0 : Vec F S2048x1024 .f32) : k0_pay1 x0 = fun j => sqAff (x0 j) := by
  unfold k0_pay1
  dsimp only
  rw [shapeCast_self]
  rfl

/-- The row array the region finds: the input's entries in row-major order as 65536 rows. -/
theorem rows_entry (c : Dev nD) :
    (V m c main_v0 : S65536x1024.Idx → Elt F .f32)
      = shapeCast S65536x1024 (m ((c : Thread nD τ).loc main_arg0)) Facts₀.shapeCasts_S64x1024x1024_S65536x1024 := by
  show StableHlo.after hostOps0 (fun b => m (c, b)) (Proc.devRef .tc main_v0) = _
  after_results
  rfl

/-- The two index maps, decided over the 32 bands: input and output bands sit at the same rows, band `t` starts
    at block row `t`, and both span all columns. -/
theorem band_facts : ∀ t : Fin cfg0.N, win0_0.index t (0 : Fin 2) = win0_1.index t (0 : Fin 2)
    ∧ win0_0.index t (1 : Fin 2) = win0_1.index t (1 : Fin 2)
    ∧ win0_1.index t (0 : Fin 2) ≤ 31
    ∧ win0_1.index t (1 : Fin 2) = 0 :=
  (by decide +kernel : ∀ t : Fin grid0.N, _)

/-- Every one of the 32 block rows is some band's. -/
theorem band_onto : ∀ q : Fin 32, ∃ t : Fin cfg0.N, win0_1.index t = ![q.val, 0] :=
  (by decide +kernel : ∀ q : Fin 32, ∃ t : Fin grid0.N, win0_1.index t = ![q.val, 0])

/-- WHAT BAND `t` WRITES BACK is band `t` of `sqAff` mapped over the row array as the region finds it. -/
theorem flushed_eq (c : Dev nD) (t : Fin cfg0.N) :
    (dats m 0 c).flushed 1 t = ((cfg0.win 1).blk t).view.read (Elt F) (rowsOut (V m c main_v0)) := by
  show (cfg0.win 1).cut (grid0.coords t) ((dats m 0 c).after 1 t) = _
  rw [after0_1]
  unfold out0_1
  rw [View.canon_unit_zero corner]
  simp only [View.ld_unit_zero (S := S2048x1024) corner]
  rw [payload_eq]
  obtain ⟨e0, e1, e2, e3⟩ := band_facts t
  funext j
  show sqAff (V m c main_v0 (((cfg0.win 0).blk t).view.emb j)) = sqAff (V m c main_v0 (((cfg0.win 1).blk t).view.emb j))
  have h0 : ((cfg0.win 0).blk t).view.emb j = ((cfg0.win 1).blk t).view.emb j := by
    funext a; apply Fin.ext
    match a with
    | ⟨0, _⟩ => show win0_0.index t (0 : Fin 2) * 2048 + 1 * (j 0).val = win0_1.index t (0 : Fin 2) * 2048 + 1 * (j 0).val; omega
    | ⟨1, _⟩ => show win0_0.index t (1 : Fin 2) * 1024 + 1 * (j 1).val = win0_1.index t (1 : Fin 2) * 1024 + 1 * (j 1).val; omega
  rw [h0]

/-- A position of the row array is in band `t` iff each coordinate is in the band's range on its axis. -/
theorem mem_band (t : Fin cfg0.N) (i : S65536x1024.Idx) :
    i ∈ ((cfg0.win 1).blk t).view.set ↔ ∀ a : Fin 2, win0_1.index t a * S2048x1024.size a ≤ (i a).val ∧ (i a).val < win0_1.index t a * S2048x1024.size a + S2048x1024.size a := by
  show i ∈ ((View.whole main_v1).slice (win0_1.rect t)).set ↔ _
  rw [View.set_slice_whole, Rect.mem_set_unit]
  exact Iff.rfl

/-- THE COVER: row `r` is in band `r / 2048`, so every position is in a band that is written back. -/
theorem covered (i : S65536x1024.Idx) :
    ∃ t : Fin cfg0.N, (cfg0.win 1).flush t = true ∧ i ∈ ((cfg0.win 1).blk t).view.set := by
  have hi0 : (i 0).val < 65536 := (i 0).isLt
  have hi1 : (i 1).val < 1024 := (i 1).isLt
  obtain ⟨t, ht⟩ := band_onto ⟨(i 0).val / 2048, by omega⟩
  have q0 : win0_1.index t (0 : Fin 2) = (i 0).val / 2048 := congrFun ht 0
  have q1 : win0_1.index t (1 : Fin 2) = 0 := congrFun ht 1
  refine ⟨t, flush0_1 t, ?_⟩
  rw [mem_band]
  intro a
  match a with
  | ⟨0, _⟩ => show win0_1.index t (0 : Fin 2) * 2048 ≤ (i 0).val ∧ (i 0).val < win0_1.index t (0 : Fin 2) * 2048 + 2048; omega
  | ⟨1, _⟩ => show win0_1.index t (1 : Fin 2) * 1024 ≤ (i 1).val ∧ (i 1).val < win0_1.index t (1 : Fin 2) * 1024 + 1024; omega

/-- THE OUTPUT ARRAY after the region: `sqAff` mapped over the row array, everywhere. -/
theorem final (c : Dev nD) : (dats m 0 c).arrAt 1 cfg0.N = rowsOut (V m c main_v0) :=
  (dats m 0 c).arrAt_eq_of_cover 1 (rowsOut (V m c main_v0)) (fun t _ => flushed_eq m c t) covered

/-- THE RESULT after the closing reshape: `sqAff` of the input, position by position. -/
theorem result_eq (c : Dev nD) :
    Pipeline.afterTail₀ cfgs (dats m) 0 (V0 m) [hostOps1] c main_v2
      = fun i => sqAff (m ((c : Thread nD τ).loc main_arg0) i) := by
  unfold Pipeline.afterTail₀
  show StableHlo.after hostOps1 _ (Proc.devRef .tc main_v2) = _
  after_results
  rw [Pipeline.withArrays_arr spec0 launch0.win.arr_inj c _ _ 1, final, rows_entry]
  exact reshape_map_reshape _ _ _

/-- Every weakly fair execution of the program ends with its result holding `sqAff` of the input, position by
    position, and the input as it was. -/
theorem run : θ_run defs (onTc (τ := τ) (main (F := F))) ⟨m, fun _ => 0, ρ⟩ fun r => ∀ c : Dev nD,
      r.2.mem ((c : Thread nD τ).loc main_v2) = (fun i => sqAff (m ((c : Thread nD τ).loc main_arg0) i))
      ∧ r.2.mem ((c : Thread nD τ).loc main_arg0) = m ((c : Thread nD τ).loc main_arg0) :=
  (θ_run defs _ _).mono (fun r h c =>
      ⟨((h c).2 main_v2 (Pipeline.mem_restRefs_of main_v2 (by decide) (by decide))).trans (result_eq m c),
       ((h c).2 main_arg0 (Pipeline.mem_restRefs_of main_arg0 (by decide) (by decide))).trans (W_main_arg0 m (dats m) c)⟩)
    (run_main m ρ)

end Cert.KernelIdeal.Rows

end
-- ==== Proof.RefEntries.lean ====
/-
  The reference, entry by entry.

  The reference adds the constant `2` to every entry, multiplies by the constant `3`, and multiplies
  the outcome by itself; each constant is a scalar spread over the whole array, so at every position it is
  that scalar. Hence entry `i` of the result is `sqAff` of entry `i` of the input, for every float
  instance, with nothing to compute: the two sides are the same composition of the float operations.
-/
import proofs.«401970_j76166950027789_3_alg».proof.Proof.Gen.ReferenceIdeal.Run
import proofs.«401970_j76166950027789_3_alg».proof.Proof.SqAffine

noncomputable section

namespace Cert.ReferenceIdeal.Entries

open Cert.ReferenceIdeal Cert.ReferenceIdeal.Gen Idealize.ShloMosaic Idealize.ShloMosaic.TcCoe Idealize.SL.Sem
open Cert.SqAffine

variable {F : FTy → Type} [FloatOps F]

/-- The composed operations of the reference, read at a position: a spread scalar is that scalar everywhere, and
    sum and product act position by position, so the result at `i` is `((x i + 2) · 3)²`. -/
theorem result_term (x : FVec F S64x1024x1024 .f32) :
    mulf (mulf (addf x (broadcastInDim S64x1024x1024 ![] bcast_S_S64x1024x1024 (constant S_ .f32 0x40000000#32)))
        (broadcastInDim S64x1024x1024 ![] bcast_S_S64x1024x1024 (constant S_ .f32 0x40400000#32)))
      (mulf (addf x (broadcastInDim S64x1024x1024 ![] bcast_S_S64x1024x1024 (constant S_ .f32 0x40000000#32)))
        (broadcastInDim S64x1024x1024 ![] bcast_S_S64x1024x1024 (constant S_ .f32 0x40400000#32)))
    = fun i => sqAff (x i) := rfl

/-- Every weakly fair execution of the reference ends with its result holding `sqAff` of the input, position by
    position, and the input as it was. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v4) = (fun i => sqAff (m ((c.tc : Thread nD τ).loc main_arg0) i))
      ∧ r.2.mem ((c.tc : Thread nD τ).loc main_arg0) = m ((c.tc : Thread nD τ).loc main_arg0) :=
  (θ_run defs _ _).mono (fun _ h c => ⟨(h c).1.trans (result_term _), (h c).2⟩)
    (Cert.ReferenceIdeal.Value.run m ρ)

end Cert.ReferenceIdeal.Entries

end
-- ==== Proof.lean ====
/-
  The kernel and its reference compute the same array: at every position, the square of an affine image of
  the input's entry there, `((x + 2) · 3)²`.

  The reference does so directly on the array of shape [64, 1024, 1024] (Proof/RefEntries.lean). The kernel
  first lays the entries out as 65536 rows of 1024, walks the rows in 32 bands of 2048, applies the same
  scalar map at every position of a band, and lays the rows back out in the original shape
  (Proof/KernelRows.lean): the bands cover every row, and a change of shape only renames positions, so it
  commutes with a map over the entries (Proof/SqAffine.lean). Both sides spell `2` and `3` with the same two
  binary words and use the same sum and product, so over the extended reals the two results are one term of
  the float operations, position by position; no law of arithmetic is needed, and so no finiteness of the
  input either: the precondition is never opened.

  The three frames: the two kernels' are the generated frame certificates; the reference's is its run with
  the result forgotten. The idealization rewrote nothing, so that it preserves the kernel is trivial.
-/
import proofs.«401970_j76166950027789_3_alg».proof.Defs
import proofs.«401970_j76166950027789_3_alg».proof.Proof.Gen.Kernel
import proofs.«401970_j76166950027789_3_alg».proof.Proof.Gen.Kernel.Frame
import proofs.«401970_j76166950027789_3_alg».proof.Proof.Gen.KernelIdeal
import proofs.«401970_j76166950027789_3_alg».proof.Proof.Gen.KernelIdeal.Frame
import proofs.«401970_j76166950027789_3_alg».proof.Proof.Gen.ReferenceIdeal
import proofs.«401970_j76166950027789_3_alg».proof.Proof.Gen.Pre_finite_inputs
import proofs.«401970_j76166950027789_3_alg».proof.Proof.KernelRows
import proofs.«401970_j76166950027789_3_alg».proof.Proof.RefEntries

noncomputable section

namespace Cert.Proof

open Idealize.ShloMosaic Idealize.ShloMosaic.TcCoe Idealize.SL.Sem
open Cert.SqAffine

/-- The word-level kernel terminates without fault and leaves its input as it was. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run, with what it says of the result dropped. -/
theorem frame_referenceIdeal : Cert.frame_ReferenceIdeal := fun m ρ _ =>
  (θ_run Cert.ReferenceIdeal.defs _ _).mono (fun _ h c => (h c).2) (Cert.ReferenceIdeal.Entries.run (F := Ideal) m ρ)

/-- No operation was rewritten on the way to the extended reals. -/
theorem preserves : Cert.preserves_Kernel_KernelIdeal := trivial

/-- From inputs that agree, both programs end with `sqAff` of the input at every position: the kernel by bands of
    rows between two changes of shape, the reference directly. -/
theorem algebraic : Cert.algebraic_KernelIdeal_ReferenceIdeal := by
  intro m ρ m' ρ' _ hagree
  refine ⟨_, Cert.KernelIdeal.Rows.run (F := Ideal) m ρ, ?_⟩
  refine (θ_run Cert.ReferenceIdeal.defs _ _).mono (fun _ h c => ⟨(h c).1.trans ?_, (h c).2⟩)
    (Cert.ReferenceIdeal.Entries.run (F := Ideal) m' ρ')
  rw [hagree c]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
